-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S512x512 : Shape := ⟨2, ![512, 512]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S8x16x512x512 .f32) (main_arg1 : FVec F S512x512 .f32) (main_arg2 : IVec S512x512 1) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S8x16x512x512 : Shape := ⟨4, ![8, 16, 512, 512]⟩
abbrev S512x512 : Shape := ⟨2, ![512, 512]⟩
abbrev S8x16x16x512 : Shape := ⟨4, ![8, 16, 16, 512]⟩
abbrev S16x512 : Shape := ⟨2, ![16, 512]⟩
abbrev S1x1x16x512 : Shape := ⟨4, ![1, 1, 16, 512]⟩
abbrev S1x8x16x512x512 : Shape := ⟨5, ![1, 8, 16, 512, 512]⟩

abbrev nBuf : Space → Nat
  | .hbm => 6
  | .vmem => 8
  | .smem => 0
  | _ => 0

abbrev bufTy : (tb : Table) → Fin (tcTables nBuf tb) → BufTy
  | .hbm, ⟨0, _⟩ => ⟨S8x16x512x512, .f32⟩
  | .hbm, ⟨1, _⟩ => ⟨S512x512, .f32⟩
  | .hbm, ⟨2, _⟩ => ⟨S512x512, .i1⟩
  | .hbm, ⟨3, _⟩ => ⟨S512x512, .i32⟩
  | .hbm, ⟨4, _⟩ => ⟨S8x16x512x512, .f32⟩
  | .hbm, ⟨5, _⟩ => ⟨S1x8x16x512x512, .f32⟩
  | .local _ .vmem, ⟨0, _⟩ => ⟨S8x16x16x512, .f32⟩
  | .local _ .vmem, ⟨1, _⟩ => ⟨S8x16x16x512, .f32⟩
  | .local _ .vmem, ⟨2, _⟩ => ⟨S16x512, .f32⟩
  | .local _ .vmem, ⟨3, _⟩ => ⟨S16x512, .f32⟩
  | .local _ .vmem, ⟨4, _⟩ => ⟨S16x512, .i32⟩
  | .local _ .vmem, ⟨5, _⟩ => ⟨S16x512, .i32⟩
  | .local _ .vmem, ⟨6, _⟩ => ⟨S8x16x16x512, .f32⟩
  | .local _ .vmem, ⟨7, _⟩ => ⟨S8x16x16x512, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S8x16x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  natLt_1_32 : 1 < 32
  inb_S16x512_S16x512_0_0 : ∀ a, (![0, 0] : Fin 2 → Nat) a + S16x512.size a ≤ S16x512.size a
  h_S16x512 : 0 < S16x512.numel
  inb_S8x16x16x512_S8x16x16x512_0_0_0_0 : ∀ a, (![0, 0, 0, 0] : Fin 4 → Nat) a + S8x16x16x512.size a ≤ S8x16x16x512.size a
  h_S8x16x16x512 : 0 < S8x16x16x512.numel
  shapeCasts_S16x512_S1x1x16x512 : S16x512.ShapeCasts S1x1x16x512
  broadcasts_S1x1x16x512_S8x16x16x512 : S1x1x16x512.Broadcasts S8x16x16x512
  bcast_S8x16x512x512_S1x8x16x512x512_1_2_3_4 : S8x16x512x512.BroadcastsInDim S1x8x16x512x512 (![1, 2, 3, 4] : Fin 4 → Fin S1x8x16x512x512.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x16x512.size a ≤ S8x16x512x512.size a
  hwx0_0 : ∀ i : grid0.Coords, EltTy.bits .f32 = 32 ∨ (Rect.block (s := S8x16x512x512) S8x16x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S512x512.size a
  hwx0_1 : ∀ i : grid0.Coords, EltTy.bits .f32 = 32 ∨ (Rect.block (s := S512x512) S16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S512x512.size a
  hwx0_2 : ∀ i : grid0.Coords, EltTy.bits .i32 = 32 ∨ (Rect.block (s := S512x512) S16x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16x16x512.size a ≤ S8x16x512x512.size a
  hwx0_3 : ∀ i : grid0.Coords, EltTy.bits .f32 = 32 ∨ (Rect.block (s := S8x16x512x512) S8x16x16x512.size (cc0_transform_3 i) (hinb0_3 i)).WholeWords (EltTy.packing .f32)

variable [Facts₀]

abbrev win0_0 : Pipeline.Window sig grid0 :=
  Pipeline.Window.ofSpec (Memref.whole main_arg0) S8x16x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x16x16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S512x512 : Shape := ⟨2, ![512, 512]⟩
abbrev S_ : Shape := ⟨0, ![]⟩
abbrev S1x1x1x512x512 : Shape := ⟨5, ![1, 1, 1, 512, 512]⟩
abbrev S1x8x16x512x512 : Shape := ⟨5, ![1, 8, 16, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S512x512, .f32⟩
  | .hbm, ⟨2, _⟩ => ⟨S512x512, .i1⟩
  | .hbm, ⟨3, _⟩ => ⟨S_, .f32⟩
  | .hbm, ⟨4, _⟩ => ⟨S512x512, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S1x1x1x512x512, .f32⟩
  | .hbm, ⟨10, _⟩ => ⟨S1x8x16x512x512, .f32⟩
  | .hbm, ⟨11, _⟩ => ⟨S1x8x16x512x512, .f32⟩
  | .hbm, ⟨12, _⟩ => ⟨S1x8x16x512x512, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512x512_S1x1x1x512x512_3_4 : S512x512.BroadcastsInDim S1x1x1x512x512 (![3, 4] : Fin 2 → Fin S1x1x1x512x512.rank)
  bcast_S8x16x512x512_S1x8x16x512x512_1_2_3_4 : S8x16x512x512.BroadcastsInDim S1x8x16x512x512 (![1, 2, 3, 4] : Fin 4 → Fin S1x8x16x512x512.rank)
  bcast_S1x1x1x512x512_S1x8x16x512x512_0_1_2_3_4 : S1x1x1x512x512.BroadcastsInDim S1x8x16x512x512 (![0, 1, 2, 3, 4] : Fin 5 → Fin S1x8x16x512x512.rank)

variable [Facts₀]

class Facts : Prop extends Facts₀ where

variable [Facts]
-- ==== Proof.MaskLaw.lean ====
/-
  The mathematics of this certificate, with no program in sight.

  Both programs scale an image `x : [8, 16, 512, 512]` by a gated weight `g : [512, 512]` shared by every
  batch and channel slice, and return the product with a leading unit axis: `out[0, b, c, h, v] = x[b, c, h, v] · g[h, v]`.
  They differ only in how the gate is formed from the weight `w` and the one-bit mask `p`:

    * by SELECTION:      `g[h, v] = if p[h, v] then 0 else w[h, v]`  (the mask widened to a 32-bit word and tested against zero);
    * by MULTIPLICATION: `g[h, v] = w[h, v] · (if p[h, v] then 0 else 1)`.

  On the extended reals `y · 0 = 0` and `y · 1 = y` for EVERY `y`, the two infinities included (`0 · ±∞ = 0` there),
  so the two gates are one function of `(w, p)` and no finiteness of the inputs is needed.
-/
import Idealize.ShloMosaic.PureOps.Ideal
import Idealize.ShloMosaic.PureOps.Ideal.Laws
import Idealize.ShloMosaic.Lib.IdealHost
import Idealize.ShloMosaic.Lib.ValueIdx

noncomputable section

namespace Cert.MaskedScale

open Idealize.ShloMosaic Idealize.ShloMosaic.ValueIdx

/-- A one-bit word, zero-extended to 32 bits, differs from the zero word exactly when the bit is set: the
    widened mask tested against zero is the mask. -/
theorem widened_ne_zero (b : BitVec 1) : IntOp.cmpi .ne (b.setWidth 32) 0#32 = b := by
  rcases BitVec.eq_zero_or_eq_one b with rfl | rfl <;> rfl

/-- THE LAW that joins the two programs: gating a weight by selection is gating it by multiplication with the
    0/1 indicator. Where the bit is set both sides are `0` (`y · 0 = 0` on the extended reals, at `y = ±∞` too);
    where it is clear both are `y` (`y · 1 = y`). -/
theorem select_eq_mul_indicator (y : EReal) (b : BitVec 1) :
    Scalar.select b (Ideal.ofBits .f32 0x00000000#32) y
      = y * Scalar.select b (Ideal.ofBits .f32 0x00000000#32) (Ideal.ofBits .f32 0x3F800000#32) := by
  rw [Ideal.ofBits_zero_f32, Ideal.ofBits_one_f32]
  by_cases h : b = 1#1
  · subst h; rw [select_one, select_one, mul_zero]
  · obtain rfl := eq_zero_of_ne_one h; rw [select_zero, select_zero, mul_one]

/-- The gated weight at row `h`, lane `v`: zero where the mask bit is set, the weight elsewhere. -/
def gate (w : (⟨2, ![512, 512]⟩ : Shape).Idx → EReal) (p : (⟨2, ![512, 512]⟩ : Shape).Idx → BitVec 1)
    (h v : Fin 512) : EReal :=
  Scalar.select (p (ix2 h v)) (Ideal.ofBits .f32 0x00000000#32) (w (ix2 h v))

/-- THE RESULT both programs compute, index by index: the image entry times the gated weight of its row and lane,
    under a leading unit axis. -/
def scaled (x : (⟨4, ![8, 16, 512, 512]⟩ : Shape).Idx → EReal) (w : (⟨2, ![512, 512]⟩ : Shape).Idx → EReal)
    (p : (⟨2, ![512, 512]⟩ : Shape).Idx → BitVec 1) : (⟨5, ![1, 8, 16, 512, 512]⟩ : Shape).Idx → EReal :=
  fun i => x (ix4 (n0 := 8) (n1 := 16) (n2 := 512) (n3 := 512) (i 1) (i 2) (i 3) (i 4))
    * gate w p (i 3) (i 4)

/-- The same result before the unit axis is added: what the kernel region leaves in its output array. -/
def scaled4 (x : (⟨4, ![8, 16, 512, 512]⟩ : Shape).Idx → EReal) (w : (⟨2, ![512, 512]⟩ : Shape).Idx → EReal)
    (p : (⟨2, ![512, 512]⟩ : Shape).Idx → BitVec 1) : (⟨4, ![8, 16, 512, 512]⟩ : Shape).Idx → EReal :=
  fun j => x j * gate w p (j 2) (j 3)

end Cert.MaskedScale

end
-- ==== Proof.ReferenceAtIndex.lean ====
/-
  The reference, read at an index: the host program's result is `scaled` of its three arguments.

  Its ten operations build the 0/1 indicator of the mask (`select p 0 1` over two broadcast constants), multiply the
  weight by it, broadcast that gate over the batch and channel axes and the image under a leading unit axis, and
  multiply. Read at the index `(0, b, c, h, v)` that is `x[b, c, h, v] · (w[h, v] · (if p[h, v] then 0 else 1))`: gating
  by multiplication, which the law of the extended reals turns into gating by selection.
-/
import proofs.«155721_g13314398617810_cont_week2b_1435_4_alg».proof.Proof.Gen.ReferenceIdeal.Read
import proofs.«155721_g13314398617810_cont_week2b_1435_4_alg».proof.Proof.MaskLaw

noncomputable section

namespace Cert.ReferenceIdeal.AtIndex

open Idealize.ShloMosaic Idealize.ShloMosaic.ValueIdx Cert.ReferenceIdeal Cert.ReferenceIdeal.Read Cert.MaskedScale

/-- Under the leading unit axis, the image's index is the four trailing coordinates. -/
theorem image_index (a : Fin 1) (b : Fin 8) (c : Fin 16) (h v : Fin 512) :
    idx_main_v5 (ix5 a b c h v) = ix4 b c h v :=
  funext fun k => match k with
    | ⟨0, _⟩ => rfl | ⟨1, _⟩ => rfl | ⟨2, _⟩ => rfl | ⟨3, _⟩ => rfl

/-- Through the two broadcasts of the gate, its index is the row and the lane. -/
theorem gate_index (a : Fin 1) (b : Fin 8) (c : Fin 16) (h v : Fin 512) :
    idx_main_v4 (idx_main_v6 (ix5 a b c h v)) = ix2 h v :=
  funext fun k => match k with
    | ⟨0, _⟩ => rfl | ⟨1, _⟩ => rfl

/-- THE REFERENCE IS `scaled`: at every index the last stage is the image entry times the weight times the mask's
    0/1 indicator, and the indicator law makes that the image entry times the gated weight. -/
theorem result_eq (x : (⟨S8x16x512x512, .f32⟩ : BufTy).Contents (Elt Ideal))
    (w : (⟨S512x512, .f32⟩ : BufTy).Contents (Elt Ideal)) (p : (⟨S512x512, .i1⟩ : BufTy).Contents (Elt Ideal)) :
    val_main_v7 (F := Ideal) x w p = scaled x w p := by
  funext i
  obtain ⟨a, b, c, h, v, rfl⟩ : ∃ (a : Fin 1) (b : Fin 8) (c : Fin 16) (h v : Fin 512), i = ix5 a b c h v :=
    ⟨i 0, i 1, i 2, i 3, i 4, eq_ix5 i⟩
  rw [val_main_v7_apply, val_main_v5_apply, val_main_v6_apply, val_main_v4_apply, val_main_v3_apply,
    val_main_v2_apply, val_main_v0_apply, val_main_v1_apply, val_main_cst_apply, val_main_cst_0_apply,
    image_index, gate_index]
  show x (ix4 b c h v) * (w (ix2 h v) * Scalar.select (p (ix2 h v)) (Ideal.ofBits .f32 0x00000000#32) (Ideal.ofBits .f32 0x3F800000#32))
    = x (ix4 b c h v) * Scalar.select (p (ix2 h v)) (Ideal.ofBits .f32 0x00000000#32) (w (ix2 h v))
  rw [select_eq_mul_indicator (w (ix2 h v))]

end Cert.ReferenceIdeal.AtIndex

end
-- ==== Proof.KernelPayload.lean ====
/-
  The kernel body's arithmetic, read at an index.

  At one grid point the body holds a block of 16 rows: the image block `xb : [8, 16, 16, 512]`, the weight block
  `wb : [16, 512]` and the widened mask block `q : [16, 512]` (32-bit words). It forms the gate block
  `g[r, v] = if q[r, v] ≠ 0 then 0 else wb[r, v]`, gives it two leading unit axes, stretches it over the batch and
  channel axes, and multiplies: the stored block is `xb[b, c, r, v] · g[r, v]`.
-/
import proofs.«155721_g13314398617810_cont_week2b_1435_4_alg».proof.Proof.Gen.KernelIdeal.Skeleton
import Idealize.ShloMosaic.Lib.Pipeline.Value
import Idealize.ShloMosaic.Lib.ValueIdx

noncomputable section

namespace Cert.KernelIdeal.BodyValue

open Idealize.ShloMosaic Idealize.ShloMosaic.ValueIdx Cert.KernelIdeal Cert.KernelIdeal.Gen

/-- A `[16, 512]` block given two leading unit axes and stretched to `[8, 16, 16, 512]`, read at `(b, c, r, v)`, is the
    block at `(r, v)`: the stretch reads the unit axes at `0`, and the two shapes list their entries in the same
    row-major order (`r · 512 + v` on both sides). -/
theorem stretched_apply (g : FVec Ideal S16x512 .f32) (b : Fin 8) (c : Fin 16) (r : Fin 16) (v : Fin 512) :
    broadcastTo S8x16x16x512 (shapeCast S1x1x16x512 g Facts₀.shapeCasts_S16x512_S1x1x16x512)
      Facts₀.broadcasts_S1x1x16x512_S8x16x16x512 (ix4 b c r v) = g (ix2 r v) := by
  refine (broadcastTo_apply _ _ (ix4 b c r v) (ix4 (0 : Fin 1) (0 : Fin 1) r v) (fun a => ?_)).trans ?_
  · match a with
    | ⟨0, _⟩ => rfl
    | ⟨1, _⟩ => rfl
    | ⟨2, _⟩ => rfl
    | ⟨3, _⟩ => rfl
  · refine shapeCast_apply _ _ _ (ix2 r v) ?_
    rw [Shape.rowMajor_val_two, Shape.rowMajor_val_four]
    show r.val * 512 + v.val = (((0 : Nat) * 1 + 0) * 16 + r.val) * 512 + v.val
    omega

/-- THE STORED BLOCK at explicit coordinates: the image entry times the gate of its row and lane. -/
theorem payload_coords (q : Vec Ideal S16x512 .i32) (wb : Vec Ideal S16x512 .f32) (xb : Vec Ideal S8x16x16x512 .f32)
    (b : Fin 8) (c : Fin 16) (r : Fin 16) (v : Fin 512) :
    k0_pay1 (F := Ideal) q wb xb (ix4 b c r v)
      = xb (ix4 b c r v)
        * Scalar.select (IntOp.cmpi .ne (q (ix2 r v)) 0#32) (Ideal.ofBits .f32 0x00000000#32) (wb (ix2 r v)) := by
  unfold k0_pay1
  show xb (ix4 b c r v) * broadcastTo S8x16x16x512 (shapeCast S1x1x16x512
      (select (cmpi .ne q (constantI S16x512 32 0#32)) (broadcast S16x512 (Scalar.ofBits (F := Ideal) .f32 0x00000000#32)) wb)
      Facts₀.shapeCasts_S16x512_S1x1x16x512) Facts₀.broadcasts_S1x1x16x512_S8x16x16x512 (ix4 b c r v) = _
  rw [stretched_apply]
  rfl

/-- The same at any index of the block: the gate is read at the index's last two coordinates. -/
theorem payload_apply (q : Vec Ideal S16x512 .i32) (wb : Vec Ideal S16x512 .f32) (xb : Vec Ideal S8x16x16x512 .f32)
    (y : S8x16x16x512.Idx) :
    k0_pay1 (F := Ideal) q wb xb y
      = xb y * Scalar.select (IntOp.cmpi .ne (q (ix2 (y 2) (y 3))) 0#32) (Ideal.ofBits .f32 0x00000000#32)
          (wb (ix2 (y 2) (y 3))) := by
  obtain ⟨b, c, r, v, rfl⟩ : ∃ (b : Fin 8) (c : Fin 16) (r : Fin 16) (v : Fin 512), y = ix4 b c r v :=
    ⟨y 0, y 1, y 2, y 3, eq_ix4 y⟩
  exact payload_coords q wb xb b c r v

end Cert.KernelIdeal.BodyValue

end
-- ==== Proof.KernelArray.lean ====
/-
  The kernel program's result, as one function of its arguments.

  The program widens the one-bit mask to 32-bit words on the host, runs the region over 32 grid points, and adds a
  leading unit axis to the region's output on the host. Point `t` of the region holds rows `16t … 16t + 15` of the
  weight and of the widened mask, and the same rows of every batch and channel slice of the image; it writes those
  rows of the output. The 32 row bands tile the 512 rows, so the output array ends holding, at every index,
  the image entry times the gated weight of its row and lane; the host's last line only re-indexes it.
-/
import proofs.«155721_g13314398617810_cont_week2b_1435_4_alg».proof.Proof.Gen.KernelIdeal.Frame
import proofs.«155721_g13314398617810_cont_week2b_1435_4_alg».proof.Proof.KernelPayload
import proofs.«155721_g13314398617810_cont_week2b_1435_4_alg».proof.Proof.MaskLaw
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayValue

open Idealize.ShloMosaic.ValueIdx Cert.KernelIdeal Cert.KernelIdeal.Gen Cert.KernelIdeal.BodyValue Cert.MaskedScale

variable (m : (ℓ : Loc nD τ sig) → Buf (Elt Ideal) ℓ) (ρ : Dev nD → PrngReg)

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-! ## What the region finds -/

/-- The one host line before the region leaves the mask, zero-extended to 32-bit words, in the buffer the region's
    third window stages. -/
theorem widened_mask (c : Dev nD) :
    (V m c main_v0 : S512x512.Idx → BitVec 32) = extui 32 (m ((c : Thread nD τ).loc main_arg2)) Facts₀.natLt_1_32 := by
  show StableHlo.after hostOps0 (fun b => m (c, b)) (Proc.devRef .tc main_v0) = _
  after_results

/-- The mask as the region tests it: each widened word compared against zero. -/
abbrev tested (c : Dev nD) : S512x512.Idx → BitVec 1 := fun k => IntOp.cmpi .ne (V m c main_v0 k) 0#32

/-- The region's output array as ONE function of the arrays the region finds: at `(b, c, h, v)` the image entry times
    the weight gated by the tested mask at `(h, v)`. -/
abbrev regionOut (c : Dev nD) : S8x16x512x512.Idx → EReal :=
  scaled4 (V m c main_arg0) (V m c main_arg1) (tested m c)

/-! ## One point's write-back is its row band of `regionOut` -/

/-- The printed index maps over the grid: the image and output windows sit at block `(0, 0, t, 0)`, the weight and mask
    windows at block `(t, 0)`. -/
theorem index_facts : ∀ t : Fin cfg0.N,
    win0_3.index t (0 : Fin 4) = 0 ∧ win0_3.index t (1 : Fin 4) = 0 ∧ win0_3.index t (2 : Fin 4) = t.val ∧ win0_3.index t (3 : Fin 4) = 0
    ∧ win0_0.index t (0 : Fin 4) = 0 ∧ win0_0.index t (1 : Fin 4) = 0 ∧ win0_0.index t (2 : Fin 4) = t.val ∧ win0_0.index t (3 : Fin 4) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `regionOut`: the body's stored block, read at an index of the block, is
    the image block's entry times the gate of the weight and mask blocks' entry; each block is its array read through
    the point's rectangle, and the three rectangles pick the same rows `16t + r` and the same lanes. -/
theorem flushed_eq (c : Dev nD) (t : Fin cfg0.N) :
    (dats m 0 c).flushed 3 t = ((cfg0.win 3).blk t).view.read (Elt Ideal) (regionOut m c) := by
  show (cfg0.win 3).cut (grid0.coords t) ((dats m 0 c).after 3 t) = _
  rw [after0_3]
  unfold out0_3
  rw [View.canon_unit_zero zeros4]
  simp only [View.ld_unit_zero (S := S16x512) zeros2, View.ld_unit_zero (S := S8x16x16x512) zeros4]
  obtain ⟨o0, o1, o2, o3, x0, x1, x2, x3, w0, w1, p0, p1⟩ := index_facts t
  funext j
  refine (payload_apply (iblk m c 2 t) (iblk m c 1 t) (iblk m c 0 t) ((cfg0.win 3).xinj (grid0.coords t) j)).trans ?_
  -- the image block's entry is the image array's entry at the output block's own index
  have hx : ((cfg0.win 0).blk t).view.emb ((cfg0.win 3).xinj (grid0.coords t) j) = ((cfg0.win 3).blk t).view.emb j := by
    funext a; apply Fin.ext
    match a with
    | ⟨0, _⟩ => show win0_0.index t (0 : Fin 4) * 8 + 1 * (j 0).val = win0_3.index t (0 : Fin 4) * 8 + 1 * (j 0).val; omega
    | ⟨1, _⟩ => show win0_0.index t (1 : Fin 4) * 16 + 1 * (j 1).val = win0_3.index t (1 : Fin 4) * 16 + 1 * (j 1).val; omega
    | ⟨2, _⟩ => show win0_0.index t (2 : Fin 4) * 16 + 1 * (j 2).val = win0_3.index t (2 : Fin 4) * 16 + 1 * (j 2).val; omega
    | ⟨3, _⟩ => show win0_0.index t (3 : Fin 4) * 512 + 1 * (j 3).val = win0_3.index t (3 : Fin 4) * 512 + 1 * (j 3).val; omega
  -- the weight block's entry at (r, v) is the weight array's entry at the output index's row and lane
  have hw : ((cfg0.win 1).blk t).view.emb (ix2 ((cfg0.win 3).xinj (grid0.coords t) j 2) ((cfg0.win 3).xinj (grid0.coords t) j 3))
      = ix2 ((((cfg0.win 3).blk t).view.emb j) 2) ((((cfg0.win 3).blk t).view.emb j) 3) := by
    funext a; apply Fin.ext
    match a with
    | ⟨0, _⟩ => show win0_1.index t (0 : Fin 2) * 16 + 1 * (j 2).val = win0_3.index t (2 : Fin 4) * 16 + 1 * (j 2).val; omega
    | ⟨1, _⟩ => show win0_1.index t (1 : Fin 2) * 512 + 1 * (j 3).val = win0_3.index t (3 : Fin 4) * 512 + 1 * (j 3).val; omega
  -- and so is the widened mask block's
  have hp : ((cfg0.win 2).blk t).view.emb (ix2 ((cfg0.win 3).xinj (grid0.coords t) j 2) ((cfg0.win 3).xinj (grid0.coords t) j 3))
      = ix2 ((((cfg0.win 3).blk t).view.emb j) 2) ((((cfg0.win 3).blk t).view.emb j) 3) := by
    funext a; apply Fin.ext
    match a with
    | ⟨0, _⟩ => show win0_2.index t (0 : Fin 2) * 16 + 1 * (j 2).val = win0_3.index t (2 : Fin 4) * 16 + 1 * (j 2).val; omega
    | ⟨1, _⟩ => show win0_2.index t (1 : Fin 2) * 512 + 1 * (j 3).val = win0_3.index t (3 : Fin 4) * 512 + 1 * (j 3).val; omega
  exact congrArg₂ (· * ·) (congrArg (V m c main_arg0) hx)
    (congrArg₂ (fun (q : BitVec 32) (y : EReal) => Scalar.select (IntOp.cmpi .ne q 0#32) (Ideal.ofBits .f32 0x00000000#32) y)
      (congrArg (V m c main_v0) hp) (congrArg (V m c main_arg1) hw))

/-! ## The row bands tile the output array -/

/-- An index of the output array is in point `t`'s block iff each coordinate is in the block's range on its axis. -/
theorem mem_band (t : Fin cfg0.N) (i : S8x16x512x512.Idx) :
    i ∈ ((cfg0.win 3).blk t).view.set ↔ ∀ a : Fin 4, win0_3.index t a * S8x16x16x512.size a ≤ (i a).val
      ∧ (i a).val < win0_3.index t a * S8x16x16x512.size a + S8x16x16x512.size a := by
  show i ∈ ((View.whole main_v1).slice (win0_3.rect t)).set ↔ _
  rw [View.set_slice_whole, Rect.mem_set_unit]
  exact Iff.rfl

/-- Every index of the output array lies in the band of the point that holds its row: point `h / 16`. -/
theorem covered (i : S8x16x512x512.Idx) :
    ∃ t : Fin cfg0.N, (cfg0.win 3).flush t = true ∧ i ∈ ((cfg0.win 3).blk t).view.set := by
  have h0 : (i 0).val < 8 := (i 0).isLt
  have h1 : (i 1).val < 16 := (i 1).isLt
  have h2 : (i 2).val < 512 := (i 2).isLt
  have h3 : (i 3).val < 512 := (i 3).isLt
  have hN : (i 2).val / 16 < cfg0.N := Nat.lt_of_lt_of_eq (by omega : (i 2).val / 16 < 32) N_0.symm
  obtain ⟨o0, o1, o2, o3, -⟩ := index_facts ⟨(i 2).val / 16, hN⟩
  refine ⟨⟨(i 2).val / 16, hN⟩, flush0_3 _, ?_⟩
  rw [mem_band]
  intro a
  match a with
  | ⟨0, _⟩ => show win0_3.index ⟨(i 2).val / 16, hN⟩ (0 : Fin 4) * 8 ≤ (i 0).val ∧ (i 0).val < win0_3.index ⟨(i 2).val / 16, hN⟩ (0 : Fin 4) * 8 + 8; omega
  | ⟨1, _⟩ => show win0_3.index ⟨(i 2).val / 16, hN⟩ (1 : Fin 4) * 16 ≤ (i 1).val ∧ (i 1).val < win0_3.index ⟨(i 2).val / 16, hN⟩ (1 : Fin 4) * 16 + 16; omega
  | ⟨2, _⟩ => show win0_3.index ⟨(i 2).val / 16, hN⟩ (2 : Fin 4) * 16 ≤ (i 2).val ∧ (i 2).val < win0_3.index ⟨(i 2).val / 16, hN⟩ (2 : Fin 4) * 16 + 16
              rw [o2]; show (i 2).val / 16 * 16 ≤ (i 2).val ∧ (i 2).val < (i 2).val / 16 * 16 + 16; omega
  | ⟨3, _⟩ => show win0_3.index ⟨(i 2).val / 16, hN⟩ (3 : Fin 4) * 512 ≤ (i 3).val ∧ (i 3).val < win0_3.index ⟨(i 2).val / 16, hN⟩ (3 : Fin 4) * 512 + 512; omega

/-- THE REGION'S OUTPUT ARRAY after the run is `regionOut`: every point writes its band of it, and the bands cover
    the array. -/
theorem region_array (c : Dev nD) : (dats m 0 c).arrAt 3 cfg0.N = regionOut m c :=
  (dats m 0 c).arrAt_eq_of_cover 3 (regionOut m c) (fun t _ => flushed_eq m c t) covered

/-! ## The program's result -/

/-- The tested widened mask is the mask: a one-bit word zero-extended is non-zero exactly when the bit is set. -/
theorem tested_eq (c : Dev nD) : tested m c = m ((c : Thread nD τ).loc main_arg2) := by
  funext k
  show IntOp.cmpi .ne (V m c main_v0 k) 0#32 = _
  rw [widened_mask]
  exact widened_ne_zero _

/-- THE RESULT: the host's last line reads the region's output under a leading unit axis, so the program's result is
    `scaled` of the three arguments as launched. -/
theorem result_eq (c : Dev nD) :
    Pipeline.afterTail₀ cfgs (dats m) 0 (V0 m) [hostOps1] c main_v2
      = scaled (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  funext i
  obtain ⟨a, b, ch, h, v, rfl⟩ : ∃ (a : Fin 1) (b : Fin 8) (ch : Fin 16) (h v : Fin 512), i = ix5 a b ch h v :=
    ⟨i 0, i 1, i 2, i 3, i 4, eq_ix5 i⟩
  -- under the unit axis, index (a, b, ch, h, v) reads the region's output at (b, ch, h, v)
  refine (broadcastInDim_apply _ _ _ (ix5 a b ch h v) (ix4 b ch h v) (fun k => ?_)).trans ?_
  · match k with
    | ⟨0, _⟩ => rfl
    | ⟨1, _⟩ => rfl
    | ⟨2, _⟩ => rfl
    | ⟨3, _⟩ => rfl
  -- which holds `regionOut`
  refine (congrFun ((Pipeline.withArrays_arr spec0 launch0.win.arr_inj c _ _ 3).trans (region_array m c)) (ix4 b ch h v)).trans ?_
  show scaled4 (V m c main_arg0) (V m c main_arg1) (tested m c) (ix4 b ch h v)
    = scaled (m ((c : Thread nD τ).loc main_arg0)) (m ((c : Thread nD τ).loc main_arg1))
        (m ((c : Thread nD τ).loc main_arg2)) (ix5 a b ch h v)
  rw [tested_eq, V_main_arg0, V_main_arg1]
  rfl

/-- THE RUN, READ: every weakly fair execution of the program terminates with its result at `scaled` of the arguments
    and the arguments unchanged. The result buffer and the mask are read off the run's clause for the buffers no
    window stages, the image and the weight off its clause for the staged input arrays. -/
theorem run : θ_run defs (onTc (τ := τ) (main (F := Ideal))) ⟨m, fun _ => 0, ρ⟩ fun r => ∀ c : Dev nD,
      r.2.mem ((c.tc : Thread nD τ).loc main_v2)
        = scaled (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.ArrayValue

end
-- ==== Proof.lean ====
/-
  The proof of `Cert.Claim`: a masked broadcast multiply in row tiles against its plain formulation.

  Both programs return `out[0, b, c, h, v] = x[b, c, h, v] · g[h, v]` for an image `x : [8, 16, 512, 512]`, a weight
  `w : [512, 512]` and a one-bit mask `p : [512, 512]`, where `g` is the weight with the masked entries zeroed.
  The kernel forms the gate by SELECTION, `g = if p then 0 else w`, sixteen rows at a time over 32 grid points, each point
  multiplying its row band of every batch and channel slice; the reference forms it by MULTIPLICATION with the mask's
  0/1 indicator, `g = w · (if p then 0 else 1)`, over whole arrays. On the extended reals `y · 0 = 0` and `y · 1 = y`
  for every `y`, infinite ones included, so the two gates are one function and no finiteness of the inputs is used.

    * Proof/MaskLaw.lean — that law, and the common result `scaled` as a function of the three arguments;
    * Proof/ReferenceAtIndex.lean — the reference's last stage, read at an index, is `scaled`;
    * Proof/KernelPayload.lean — the kernel body's stored block at an index;
    * Proof/KernelArray.lean — each point writes its row band of one whole-array function, the bands tile the output,
      the host's last line adds the unit axis: the kernel program's result is `scaled`.

  The three frames are the generated ones (the reference's is its generated run with the result dropped); the
  idealization rewrote nothing, so `preserves` is `True`.
-/
import proofs.«155721_g13314398617810_cont_week2b_1435_4_alg».proof.Defs
import proofs.«155721_g13314398617810_cont_week2b_1435_4_alg».proof.Proof.Gen.Kernel
import proofs.«155721_g13314398617810_cont_week2b_1435_4_alg».proof.Proof.Gen.Kernel.Skeleton
import proofs.«155721_g13314398617810_cont_week2b_1435_4_alg».proof.Proof.Gen.Kernel.Launch
import proofs.«155721_g13314398617810_cont_week2b_1435_4_alg».proof.Proof.Gen.Kernel.Points
import proofs.«155721_g13314398617810_cont_week2b_1435_4_alg».proof.Proof.Gen.Kernel.Frame
import proofs.«155721_g13314398617810_cont_week2b_1435_4_alg».proof.Proof.Gen.KernelIdeal
import proofs.«155721_g13314398617810_cont_week2b_1435_4_alg».proof.Proof.Gen.KernelIdeal.Skeleton
import proofs.«155721_g13314398617810_cont_week2b_1435_4_alg».proof.Proof.Gen.KernelIdeal.Launch
import proofs.«155721_g13314398617810_cont_week2b_1435_4_alg».proof.Proof.Gen.KernelIdeal.Points
import proofs.«155721_g13314398617810_cont_week2b_1435_4_alg».proof.Proof.Gen.KernelIdeal.Frame
import proofs.«155721_g13314398617810_cont_week2b_1435_4_alg».proof.Proof.Gen.ReferenceIdeal
import proofs.«155721_g13314398617810_cont_week2b_1435_4_alg».proof.Proof.Gen.Pre_finite_inputs
import proofs.«155721_g13314398617810_cont_week2b_1435_4_alg».proof.Proof.Gen.ReferenceIdeal.Run
import proofs.«155721_g13314398617810_cont_week2b_1435_4_alg».proof.Proof.Gen.ReferenceIdeal.Read
import proofs.«155721_g13314398617810_cont_week2b_1435_4_alg».proof.Proof.MaskLaw
import proofs.«155721_g13314398617810_cont_week2b_1435_4_alg».proof.Proof.ReferenceAtIndex
import proofs.«155721_g13314398617810_cont_week2b_1435_4_alg».proof.Proof.KernelArray
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is ten host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the image, the weight and the mask, both programs end with `scaled` of them: the kernel
    by its row bands, the reference by its stages read at an index and the indicator law. -/
theorem algebraic : Cert.algebraic_KernelIdeal_ReferenceIdeal := by
  intro m ρ m' ρ' _ hagree
  refine ⟨fun c => Cert.MaskedScale.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.AtIndex.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
